-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096x1024, .bf16⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S512x4096_S512 : S512x4096.Reduces [1] S512
  shapeCasts_S512_S512x1 : S512.ShapeCasts S512x1
  broadcasts_S512x1_S512x4096 : S512x1.Broadcasts S512x4096
  broadcasts_S512x1_S512x1024 : S512x1.Broadcasts S512x1024
  dot_S512x1024_S4096x1024_S512x4096_1_1_0_0_n_n_wf : DotDims.WF S512x1024 S4096x1024 S512x4096 [1] [1] [0] [0] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  dot_S16384x1024_S4096x1024_S16384x4096_1_1_0_0_n_n_wf : DotDims.WF S16384x1024 S4096x1024 S16384x4096 [1] [1] [0] [0] [] []
  dot_S16384x4096_S4096x1024_S16384x1024_1_0_0_1_n_n_wf : DotDims.WF S16384x4096 S4096x1024 S16384x1024 [1] [0] [0] [1] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.RowLaw.lean ====
/-
  One output row of label attention, in the two arrangements the programs compute it in.

  For a row x of the documents (indexed by the columns κ) and the label table Y (rows indexed by the labels ι): the
  score of label l is the inner product s l = ∑ k, x k · Y l k; the row's top score T is the largest of them; the weight
  of label l is w l = exp (s l − T) and the row's mass is W = ∑ l, w l. The output at column d is

      x d + (∑ l, w l · Y l d) · (1 / W)        normalizing AFTER the second product, or
      x d + ∑ l, (w l / W) · Y l d              normalizing each weight first.

  On extended reals these differ in general (a factor moves across a sum); they agree when x and Y hold real numbers
  and there is at least one label: then every score is real, T is real (the largest of finitely many reals), every
  weight is a positive real, W is a positive real, and the identity is the distributive law of the reals.
-/
import Idealize.ShloMosaic.PureOps.Ideal
import Idealize.ShloMosaic.PureOps.Ideal.Laws

noncomputable section

namespace Cert.RowLaw

open Idealize.ShloMosaic

section Defs

variable {ι κ : Type} [Fintype ι] [Fintype κ] (x : κ → EReal) (Y : ι → κ → EReal)

/-- The score of label l: the inner product of the row with the label's row. -/
def score (l : ι) : EReal := ∑ k : κ, x k * Y l k

/-- The row's top score: the running maximum over all labels, started at −∞. -/
def top : EReal := (Finset.univ : Finset ι).fold max (Ideal.ofBits .f32 0xFF800000#32) (score x Y)

/-- The weight of label l: the exponential of its score's distance below the top. -/
def weight (l : ι) : EReal := Ideal.exp (score x Y l - top x Y)

/-- The row's mass: the sum of all weights. -/
def mass : EReal := ∑ l : ι, weight x Y l

/-- The output row, normalized after the product with the table: the weighted sum of the table's column, times one
    over the mass. -/
def deferred (d : κ) : EReal :=
  x d + (∑ l : ι, weight x Y l * Y l d) * Ideal.div (Ideal.ofBits .f32 0x3F800000#32) (mass x Y)

/-- The output row, each weight normalized first. -/
def normalized (d : κ) : EReal :=
  x d + ∑ l : ι, Ideal.div (weight x Y l) (mass x Y) * Y l d

end Defs

/-! ## Real values stay real -/

/-- A finite sum of reals read as extended reals is the real sum. -/
theorem coe_sum {α : Type*} (s : Finset α) (g : α → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The word of −∞ is the bottom of the extended reals. -/
theorem ofBits_neg_inf : Ideal.ofBits .f32 0xFF800000#32 = (⊥ : EReal) := by
  simp [Ideal.ofBits, Ideal.ieee]

/-- The word of 1.0 is one: exponent field 127 and fraction field 0, so 2^23 · 2^(127 − 127 − 23). -/
theorem ofBits_one : Ideal.ofBits .f32 0x3F800000#32 = ((1 : ℝ) : EReal) := by
  simp [Ideal.ofBits, Ideal.ieee, -EReal.coe_mul]; norm_num

/-- The running maximum from −∞ over a nonempty finite family of reals is a real: it is at least the first member, and at
    most the family's largest member. -/
theorem fold_max_real {α : Type*} (s : Finset α) (hs : s.Nonempty) (g : α → ℝ) :
    ∃ T : ℝ, s.fold max (⊥ : EReal) (fun i => ((g i : ℝ) : EReal)) = (T : EReal) := by
  obtain ⟨i₀, hi₀⟩ := hs
  have hlow : ((g i₀ : ℝ) : EReal) ≤ s.fold max (⊥ : EReal) (fun i => ((g i : ℝ) : EReal)) :=
    (Finset.le_fold_max _).mpr (Or.inr ⟨i₀, hi₀, le_rfl⟩)
  have hup : s.fold max (⊥ : EReal) (fun i => ((g i : ℝ) : EReal)) ≤ ((s.sup' ⟨i₀, hi₀⟩ g : ℝ) : EReal) :=
    (Finset.fold_max_le _).mpr ⟨bot_le, fun i hi => EReal.coe_le_coe_iff.mpr (Finset.le_sup' g hi)⟩
  have hne_bot : s.fold max (⊥ : EReal) (fun i => ((g i : ℝ) : EReal)) ≠ ⊥ :=
    fun h => (EReal.coe_ne_bot (g i₀)) (le_bot_iff.mp (h ▸ hlow))
  have hne_top : s.fold max (⊥ : EReal) (fun i => ((g i : ℝ) : EReal)) ≠ ⊤ :=
    fun h => (EReal.coe_ne_top _) (top_le_iff.mp (h ▸ hup))
  exact ⟨_, (EReal.coe_toReal hne_top hne_bot).symm⟩

/-! ## The two arrangements agree on real inputs -/

section Law

variable {ι κ : Type} [Fintype ι] [Fintype κ] [Nonempty ι] (x' : κ → ℝ) (y' : ι → κ → ℝ)

/-- Every score of a real row against a real table is the real inner product. -/
theorem score_real (l : ι) :
    score (fun k => ((x' k : ℝ) : EReal)) (fun l k => ((y' l k : ℝ) : EReal)) l = ((∑ k : κ, x' k * y' l k : ℝ) : EReal) := by
  unfold score
  simp only [← EReal.coe_mul]
  exact coe_sum _ _

/-- So the top score is real. -/
theorem top_real :
    ∃ T : ℝ, top (fun k => ((x' k : ℝ) : EReal)) (fun l k => ((y' l k : ℝ) : EReal)) = (T : EReal) := by
  unfold top
  rw [ofBits_neg_inf, show score (fun k => ((x' k : ℝ) : EReal)) (fun l k => ((y' l k : ℝ) : EReal))
    = fun l => ((∑ k : κ, x' k * y' l k : ℝ) : EReal) from funext (score_real x' y')]
  exact fold_max_real _ Finset.univ_nonempty _

/-- With real entries in the row and in the table, normalizing after the product and normalizing each weight first give
    the same output. -/
theorem deferred_eq_normalized (d : κ) :
    deferred (fun k => ((x' k : ℝ) : EReal)) (fun l k => ((y' l k : ℝ) : EReal)) d
      = normalized (fun k => ((x' k : ℝ) : EReal)) (fun l k => ((y' l k : ℝ) : EReal)) d := by
  obtain ⟨T, hT⟩ := top_real x' y'
  -- every weight is a positive real
  have hw : ∀ l, weight (fun k => ((x' k : ℝ) : EReal)) (fun l k => ((y' l k : ℝ) : EReal)) l
      = ((Real.exp ((∑ k : κ, x' k * y' l k) - T) : ℝ) : EReal) := by
    intro l
    unfold weight
    rw [score_real, hT, ← EReal.coe_sub, Ideal.exp_coe]
  -- and the mass is a positive real
  have hm : mass (fun k => ((x' k : ℝ) : EReal)) (fun l k => ((y' l k : ℝ) : EReal))
      = ((∑ l : ι, Real.exp ((∑ k : κ, x' k * y' l k) - T) : ℝ) : EReal) := by
    unfold mass
    simp only [hw]
    exact coe_sum _ _
  have hpos : (0 : ℝ) < ∑ l : ι, Real.exp ((∑ k : κ, x' k * y' l k) - T) :=
    Finset.sum_pos (fun l _ => Real.exp_pos _) Finset.univ_nonempty
  unfold deferred normalized
  rw [hm]
  simp only [hw, Ideal.div_coe hpos.ne', ofBits_one, ← EReal.coe_mul]
  rw [coe_sum, coe_sum, ← EReal.coe_mul]
  congr 2
  rw [Finset.sum_mul]
  exact Finset.sum_congr rfl fun l _ => by ring

end Law

end Cert.RowLaw

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.LibTransposedDot.lean ====
/-
  A matrix product with the right operand contracted on its last axis, read at an index.

  For the dimension numbers of an M × K by N × K product (contract the columns of both operands, no batch axis: the
  left operand times the transpose of the right one), the sum over the contraction index that a matmul or a
  dot_general denotes at the ideal values is, at row p and column q, the sum over k of l (p, k) · r (q, k). General in
  M, K, N; a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

variable (M K N : Nat)

theorem contr_rank : (DotDims.transposedRhs M K N).contr.rank = 1 := rfl
theorem contr_size : (DotDims.transposedRhs M K N).contr.size ⟨0, by rw [contr_rank]; exact Nat.one_pos⟩ = K := rfl

/-- The contraction index is its one coordinate, a column of either operand. -/
abbrev colEquiv : (DotDims.transposedRhs M K N).contr.Idx ≃ Fin K :=
  contrEquiv1 (DotDims.transposedRhs M K N) K (contr_rank M K N) (contr_size M K N)

/-- The left operand is read at (row of the result, k). -/
theorem lhsIdx_eq (j : (⟨2, ![M, N]⟩ : Shape).Idx) (k : Fin K) :
    (DotDims.transposedRhs M K N).lhsIdx j ((colEquiv M K N).symm k) = ix2 (j 0) k := by
  funext a
  apply Fin.ext
  match a with
  | ⟨0, _⟩ => rfl
  | ⟨1, _⟩ =>
    exact ((DotDims.transposedRhs M K N).lhsIdx_val_of_single (cl := 1) rfl j _).trans
      (contrEquiv1_symm_val (DotDims.transposedRhs M K N) K (contr_rank M K N) (contr_size M K N) k)

/-- The right operand is read at (column of the result, k): its rows are the result's columns. -/
theorem rhsIdx_eq (j : (⟨2, ![M, N]⟩ : Shape).Idx) (k : Fin K) :
    (DotDims.transposedRhs M K N).rhsIdx j ((colEquiv M K N).symm k) = ix2 (j 1) k := by
  funext a
  apply Fin.ext
  match a with
  | ⟨0, _⟩ => rfl
  | ⟨1, _⟩ =>
    exact ((DotDims.transposedRhs M K N).rhsIdx_val_of_single (cr := 1) rfl j _).trans
      (contrEquiv1_symm_val (DotDims.transposedRhs M K N) K (contr_rank M K N) (contr_size M K N) k)

/-- The contraction sum, over the shared column index. -/
theorem sum_eq (l : (⟨2, ![M, K]⟩ : Shape).Idx → EReal) (r : (⟨2, ![N, K]⟩ : Shape).Idx → EReal) (j : (⟨2, ![M, N]⟩ : Shape).Idx) :
    (∑ kk : (DotDims.transposedRhs M K N).contr.Idx,
        l ((DotDims.transposedRhs M K N).lhsIdx j kk) * r ((DotDims.transposedRhs M K N).rhsIdx j kk))
      = ∑ k : Fin K, l (ix2 (j 0) k) * r (ix2 (j 1) k) := by
  rw [← Equiv.sum_comp (colEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![N, K]⟩ φ₂)
    (p : Fin M) (q : Fin N) :
    matmul (DotDims.transposedRhs M K N) prec l r (constant ⟨2, ![M, N]⟩ .f32 0x00000000#32) (ix2 p q)
      = ∑ k : Fin K, l (ix2 p k) * r (ix2 q k) :=
  (Ideal.matmul_constant_zero_apply (DotDims.transposedRhs M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![N, K]⟩ φ₂)
    (p : Fin M) (q : Fin N) :
    Host.dotGeneral (DotDims.transposedRhs M K N) prec l r (ix2 p q) = ∑ k : Fin K, l (ix2 p k) * r (ix2 q k) :=
  (Ideal.dotGeneral_apply (DotDims.transposedRhs M K N) prec _ l r (ix2 p q)).trans (sum_eq M K N l r (ix2 p q))

end Idealize.ShloMosaic.TransposedDot

end
-- ==== Proof.Payload.lean ====
/-
  What the kernel's body stores, read at an entry.

  The body holds a block of 512 document rows and the whole label table. It forms the block's scores against all
  labels, each row's maximum, the exponentials of the distances below it and their row sums, multiplies the
  (unnormalized) weights with the table, scales row p by one over its sum and adds the block. Narrowing to the short
  float format and back changes nothing at exact values. Read at row p and column q of the block this is the deferred
  form of the row law for row p of the block.
-/
import proofs.«407747_j76527727280298_3_alg».proof.Proof.Gen.KernelIdeal.Skeleton
import proofs.«407747_j76527727280298_3_alg».proof.Proof.RowLaw
import proofs.«407747_j76527727280298_3_alg».proof.Proof.LibColumns
import proofs.«407747_j76527727280298_3_alg».proof.Proof.LibPlainDot
import proofs.«407747_j76527727280298_3_alg».proof.Proof.LibTransposedDot
import Idealize.ShloMosaic.Lib.Pipeline.Value

noncomputable section

namespace Cert.Payload

open Cert.KernelIdeal Cert.KernelIdeal.Gen Idealize.ShloMosaic Idealize.ShloMosaic.ValueIdx

/-- The reduced index p with the label coordinate l put back is (p, l). -/
theorem lift_eq (h : S512x4096.Reduces [1] S512) (p : Fin 512) (l : Fin (S512x4096.size 1)) :
    h.lift (ix1 p) l = ix2 p (⟨l.val, l.isLt⟩ : Fin 4096) :=
  funext fun a => Fin.ext (by match a with | ⟨0, _⟩ => rfl | ⟨1, _⟩ => rfl)

/-- A row maximum over the 4096 labels, from −∞: the running maximum of the row's entries. -/
theorem rowMax_apply (v : FVec Ideal S512x4096 .f32) (p : Fin 512) :
    multiReduction .maximumf [1] S512 v 0xFF800000#32 reduces_S512x4096_S512 (.inl rfl) rfl (ix1 p)
      = (Finset.univ : Finset (Fin 4096)).fold max (Ideal.ofBits .f32 0xFF800000#32) (fun l => v (ix2 p l)) :=
  (Ideal.multiReduction_maximumf_single v 0xFF800000#32 reduces_S512x4096_S512 (.inl rfl) rfl (ix1 p)).trans
    (congrArg (fun f => Finset.fold max (Ideal.ofBits .f32 0xFF800000#32) f (Finset.univ : Finset (Fin 4096)))
      (funext fun l => congrArg v (lift_eq reduces_S512x4096_S512 p l)))

/-- A row sum over the 4096 labels. -/
theorem rowSum_apply (v : FVec Ideal S512x4096 .f32) (p : Fin 512) :
    multiReduction .add [1] S512 v 0x00000000#32 reduces_S512x4096_S512 (.inl rfl) rfl (ix1 p)
      = ∑ l : Fin 4096, v (ix2 p l) :=
  (Ideal.multiReduction_add_single v 0x00000000#32 reduces_S512x4096_S512 (.inl rfl) rfl (ix1 p)).trans
    (Finset.sum_congr rfl fun l _ => congrArg v (lift_eq reduces_S512x4096_S512 p l))

/-- The first product, the block against the table with both contracted along their columns, at (p, l). -/
theorem scores_apply (a : FVec Ideal S512x1024 .bf16) (b : FVec Ideal S4096x1024 .bf16) (p : Fin 512) (l : Fin 4096) :
    matmul dot_S512x1024_S4096x1024_S512x4096_1_1_0_0_n_n none a b (constant S512x4096 .f32 0x00000000#32) (ix2 p l)
      = ∑ k : Fin 1024, a (ix2 p k) * b (ix2 l k) :=
  TransposedDot.matmul_zero_apply 512 1024 4096 none a b p l

/-- The second product, weights against the table, at (p, q). -/
theorem attend_apply (a : FVec Ideal S512x4096 .bf16) (b : FVec Ideal S4096x1024 .bf16) (p : Fin 512) (q : Fin 1024) :
    matmul dot_S512x4096_S4096x1024_S512x1024_1_0_0_1_n_n none a b (constant S512x1024 .f32 0x00000000#32) (ix2 p q)
      = ∑ l : Fin 4096, a (ix2 p l) * b (ix2 l q) :=
  PlainDot.matmul_zero_apply 512 4096 1024 none a b p q

/-- Row p of the block. -/
abbrev row (x0 : Vec Ideal S512x1024 .f32) (p : Fin 512) : Fin 1024 → EReal := fun k => x0 (ix2 p k)

/-- The label table by row and column. -/
abbrev tab (x1 : Vec Ideal S4096x1024 .bf16) : Fin 4096 → Fin 1024 → EReal := fun l k => x1 (ix2 l k)

/-- The block's scores against all labels. -/
def scores (x0 : Vec Ideal S512x1024 .f32) (x1 : Vec Ideal S4096x1024 .bf16) : FVec Ideal S512x4096 .f32 :=
  matmul dot_S512x1024_S4096x1024_S512x4096_1_1_0_0_n_n none (truncf .bf16 x0 bitsLt_bf16_f32)
    (shapeCast S4096x1024 x1 shapeCasts_S4096x1024_S4096x1024 : FVec Ideal S4096x1024 .bf16) (constant S512x4096 .f32 0x00000000#32)

/-- The exponentials of a score matrix's distances below its row maxima. -/
def weights (v : FVec Ideal S512x4096 .f32) : FVec Ideal S512x4096 .f32 :=
  exp (subf v (broadcastTo S512x4096
    (shapeCast S512x1 (multiReduction .maximumf [1] S512 v 0xFF800000#32 reduces_S512x4096_S512 (.inl rfl) rfl) shapeCasts_S512_S512x1)
    broadcasts_S512x1_S512x4096))

/-- The scores at (p, l): the score of label l for row p of the block. -/
theorem scores_eq (x0 : Vec Ideal S512x1024 .f32) (x1 : Vec Ideal S4096x1024 .bf16) (p : Fin 512) (l : Fin 4096) :
    scores x0 x1 (ix2 p l) = RowLaw.score (row x0 p) (tab x1) l := by
  unfold scores
  refine (scores_apply _ _ p l).trans ?_
  unfold RowLaw.score
  refine Finset.sum_congr rfl fun k _ => congrArg (x0 (ix2 p k) * ·) ?_
  exact congrFun (shapeCast_self x1 shapeCasts_S4096x1024_S4096x1024) (ix2 l k)

/-- The weights at (p, l), for any score matrix: the exponential of the entry's distance below its row's running
    maximum. -/
theorem weights_apply (v : FVec Ideal S512x4096 .f32) (p : Fin 512) (l : Fin 4096) :
    weights v (ix2 p l)
      = Ideal.exp (v (ix2 p l) - (Finset.univ : Finset (Fin 4096)).fold max (Ideal.ofBits .f32 0xFF800000#32) (fun l' => v (ix2 p l'))) := by
  unfold weights
  show Ideal.exp (v (ix2 p l) - broadcastTo S512x4096 _ broadcasts_S512x1_S512x4096 (ix2 p l)) = _
  refine congrArg (fun z => Ideal.exp (v (ix2 p l) - z)) ?_
  refine (Columns.broadcastTo_a1_ab_apply _ broadcasts_S512x1_S512x4096 p l).trans ?_
  refine (Columns.shapeCast_a_a1_apply _ shapeCasts_S512_S512x1 p (0 : Fin 1)).trans ?_
  exact rowMax_apply v p

/-- The weights of the block's scores at (p, l): the weight of label l for row p. -/
theorem weights_eq (x0 : Vec Ideal S512x1024 .f32) (x1 : Vec Ideal S4096x1024 .bf16) (p : Fin 512) (l : Fin 4096) :
    weights (scores x0 x1) (ix2 p l) = RowLaw.weight (row x0 p) (tab x1) l := by
  have hf : (fun l' : Fin 4096 => scores x0 x1 (ix2 p l')) = RowLaw.score (row x0 p) (tab x1) :=
    funext fun l' => scores_eq x0 x1 p l'
  rw [weights_apply, hf, scores_eq]
  rfl

/-- The row sums of the weights, as a column, at (p, 0): the row's mass. -/
theorem mass_eq (x0 : Vec Ideal S512x1024 .f32) (x1 : Vec Ideal S4096x1024 .bf16) (p : Fin 512) :
    shapeCast S512x1 (multiReduction .add [1] S512 (weights (scores x0 x1)) 0x00000000#32 reduces_S512x4096_S512 (.inl rfl) rfl)
        shapeCasts_S512_S512x1 (ix2 p (0 : Fin 1))
      = RowLaw.mass (row x0 p) (tab x1) := by
  refine (Columns.shapeCast_a_a1_apply _ shapeCasts_S512_S512x1 p (0 : Fin 1)).trans ?_
  refine (rowSum_apply _ p).trans ?_
  unfold RowLaw.mass
  exact Finset.sum_congr rfl fun l _ => weights_eq x0 x1 p l

/-- The body's stored value, with its scores and weights named. -/
theorem pay_eq (x0 : Vec Ideal S512x1024 .f32) (x1 : Vec Ideal S4096x1024 .bf16) :
    k0_pay1 (F := Ideal) x0 x1
      = addf x0 (mulf
          (matmul dot_S512x4096_S4096x1024_S512x1024_1_0_0_1_n_n none (truncf .bf16 (weights (scores x0 x1)) bitsLt_bf16_f32)
            (shapeCast S4096x1024 x1 shapeCasts_S4096x1024_S4096x1024 : FVec Ideal S4096x1024 .bf16) (constant S512x1024 .f32 0x00000000#32))
          (broadcastTo S512x1024
            (divf (broadcast S512x1 (Scalar.ofBits .f32 0x3F800000#32))
              (shapeCast S512x1 (multiReduction .add [1] S512 (weights (scores x0 x1)) 0x00000000#32 reduces_S512x4096_S512 (.inl rfl) rfl)
                shapeCasts_S512_S512x1))
            broadcasts_S512x1_S512x1024)) := by
  unfold k0_pay1 weights scores
  rfl

/-- A block plus a product scaled row by row by a column, at (p, q). -/
theorem combine_apply (x0 P : FVec Ideal S512x1024 .f32) (c : FVec Ideal S512x1 .f32) (p : Fin 512) (q : Fin 1024) :
    addf x0 (mulf P (broadcastTo S512x1024 c broadcasts_S512x1_S512x1024)) (ix2 p q)
      = x0 (ix2 p q) + P (ix2 p q) * c (ix2 p (0 : Fin 1)) := by
  show x0 (ix2 p q) + P (ix2 p q) * broadcastTo S512x1024 c broadcasts_S512x1_S512x1024 (ix2 p q) = _
  rw [Columns.broadcastTo_a1_ab_apply]

/-- One over a column, at (p, 0). -/
theorem recip_apply (M : FVec Ideal S512x1 .f32) (p : Fin 512) :
    divf (broadcast S512x1 (Scalar.ofBits (F := Ideal) .f32 0x3F800000#32)) M (ix2 p (0 : Fin 1))
      = Ideal.div (Ideal.ofBits .f32 0x3F800000#32) (M (ix2 p (0 : Fin 1))) := rfl

/-- THE PAYLOAD AT AN ENTRY: the deferred form of the row law for row p of the block, at column q. -/
theorem pay_apply (x0 : Vec Ideal S512x1024 .f32) (x1 : Vec Ideal S4096x1024 .bf16) (p : Fin 512) (q : Fin 1024) :
    k0_pay1 (F := Ideal) x0 x1 (ix2 p q) = RowLaw.deferred (row x0 p) (tab x1) q := by
  rw [pay_eq]
  refine (combine_apply x0 _ _ p q).trans ?_
  unfold RowLaw.deferred
  refine congrArg (x0 (ix2 p q) + ·) (congrArg₂ (· * ·) ?_ ?_)
  · refine (attend_apply _ _ p q).trans (Finset.sum_congr rfl fun l _ => congrArg₂ (· * ·) ?_ ?_)
    · exact weights_eq x0 x1 p l
    · exact congrFun (shapeCast_self x1 shapeCasts_S4096x1024_S4096x1024) (ix2 l q)
  · refine (recip_apply _ p).trans ?_
    exact congrArg (Ideal.div (Ideal.ofBits .f32 0x3F800000#32)) (mass_eq x0 x1 p)

end Cert.Payload

end
-- ==== Proof.KernelArray.lean ====
/-
  The kernel's result array as one function of the arguments.

  Grid point t works on document rows 512·t … 512·t + 511 (all 1024 columns) and on the whole label table, narrowed to the
  short float format before the launch, which is the identity at exact values. What it writes back is its block of the
  function G: at (n, d), the deferred form of the row law for row n of the documents. The 32 blocks tile the array, so
  after the run the array is G of the arguments.
-/
import proofs.«407747_j76527727280298_3_alg».proof.Proof.Gen.KernelIdeal.Value
import proofs.«407747_j76527727280298_3_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen Cert.KernelIdeal.Value

/-- The result as a function of the documents A and the label table B: at (n, d) the deferred row law of row n. -/
def G (A : Vec Ideal S16384x1024 .f32) (B : Vec Ideal S4096x1024 .bf16) : Vec Ideal S16384x1024 .f32 :=
  fun i => RowLaw.deferred (fun k : Fin 1024 => A (ix2 (i 0) k)) (fun (l : Fin 4096) (k : Fin 1024) => B (ix2 l k)) (i 1)

/-- The payload of a block whose rows are rows of A, over a table equal to B, at an entry of the block: G at the
    entry's place in the array. -/
theorem pay_G (x0 : Vec Ideal S512x1024 .f32) (x1 : Vec Ideal S4096x1024 .bf16) (A : Vec Ideal S16384x1024 .f32)
    (B : Vec Ideal S4096x1024 .bf16) (j : S512x1024.Idx) (i : S16384x1024.Idx)
    (hrow : ∀ k : Fin 1024, x0 (ix2 (j 0) k) = A (ix2 (i 0) k)) (htab : ∀ (l : Fin 4096) (k : Fin 1024), x1 (ix2 l k) = B (ix2 l k))
    (hcol : (i 1).val = (j 1).val) :
    k0_pay1 (F := Ideal) x0 x1 j = G A B i := by
  obtain ⟨p, q, rfl⟩ : ∃ (p : Fin 512) (q : Fin 1024), j = ix2 p q := ⟨j 0, j 1, eq_ix2 j⟩
  rw [Payload.pay_apply]
  unfold G
  have e1 : Payload.row x0 p = fun k : Fin 1024 => A (ix2 (i 0) k) := funext hrow
  have e2 : Payload.tab x1 = fun (l : Fin 4096) (k : Fin 1024) => B (ix2 l k) := funext fun l => funext fun k => htab l k
  have e3 : q = i 1 := Fin.ext hcol.symm
  rw [e1, e2, e3]

section Run

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the document window and the result window sit at block row t and
    block column 0; the table's window is always the whole table. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of G of the two arrays the region reads. -/
theorem flushed_eq (c : Dev nD) (t : Fin cfg0.N) :
    (dats m 0 c).flushed 2 t = ((cfg0.win 2).blk t).view.read (Elt Ideal) (G (V m c main_arg0) (V m c main_v0)) := by
  rw [Value.flushed2]
  unfold out0_2
  rw [View.canon_unit_zero hz]
  simp only [View.ld_unit_zero (S := S512x1024) hz, View.ld_unit_zero (S := S4096x1024) hz]
  obtain ⟨e0, e1, e2, e3, e4, e5⟩ := idx_facts t
  funext j
  show k0_pay1 (F := Ideal) (iblk m c 0 t) (iblk m c 1 t) j = G (V m c main_arg0) (V m c main_v0) (((cfg0.win 2).blk t).view.emb j)
  refine pay_G _ _ _ _ j _ (fun k => ?_) (fun l k => ?_) ?_
  · show V m c main_arg0 (((cfg0.win 0).blk t).view.emb (ix2 (j 0) k)) = V m c main_arg0 _
    refine congrArg (V m c main_arg0) (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 1024 + 1 * k.val = k.val
      omega
  · show V m c main_v0 (((cfg0.win 1).blk t).view.emb (ix2 l k)) = V m c main_v0 _
    refine congrArg (V m c main_v0) (funext fun a => Fin.ext ?_)
    match a with
    | ⟨0, _⟩ =>
      show win0_1.index t (0 : Fin 2) * 4096 + 1 * l.val = l.val
      omega
    | ⟨1, _⟩ =>
      show win0_1.index t (1 : Fin 2) * 1024 + 1 * k.val = k.val
      omega
  · show win0_2.index t (1 : Fin 2) * 1024 + 1 * (j 1).val = (j 1).val
    omega

/-- An index of the array is in point t's block iff each coordinate is in the block's range on its axis. -/
theorem mem_blk (t : Fin cfg0.N) (i : S16384x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- Every entry of the array lies in some point's block: row n in the block of point n / 512. -/
theorem cover (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  obtain ⟨e0, e1, e2, e3, e4, e5⟩ := idx_facts t
  have ht : t.val = (i 0).val / 512 := rfl
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- THE ARRAY after the run: G of the two arrays the region reads. -/
theorem final (c : Dev nD) : (dats m 0 c).arrAt 2 cfg0.N = G (V m c main_arg0) (V m c main_v0) :=
  (dats m 0 c).arrAt_eq_of_cover 2 (G (V m c main_arg0) (V m c main_v0)) (fun t _ => flushed_eq m c t) cover

/-- The table the region reads is the label argument: the conversion before the launch is the identity at exact
    values. -/
theorem table_eq (c : Dev nD) :
    @Eq (FVec Ideal S4096x1024 .bf16) (V m c main_v0) (m ((c : Thread nD τ).loc main_arg1) : FVec Ideal S4096x1024 .f32) := by
  have e : @Eq (FVec Ideal S4096x1024 .bf16) (V m c main_v0)
      (truncf (F := Ideal) .bf16 (m ((c : Thread nD τ).loc main_arg1) : FVec Ideal S4096x1024 .f32) bitsLt_bf16_f32) := by
    dsimp only [V, hostOps0]
    after_results
  rw [e]
  rfl

/-- The run, read: the result array at G of the arguments, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1) : Vec Ideal S4096x1024 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [table_eq, V_main_arg0])), (h c).2⟩)
    (Value.run_blocks m ρ)

end Run

end Cert.KernelArray

end
-- ==== Proof.RefRow.lean ====
/-
  The reference's result, read at an entry.

  The reference forms the whole score matrix (documents against labels), takes each row's maximum, exponentiates the
  distances below it, divides each weight by its row's sum, multiplies the normalized weights with the label table and
  adds the documents. Read at row n and column d this is the normalized form of the row law, for the row n of the
  documents: every stage depends on the documents only through that row.
-/
import proofs.«407747_j76527727280298_3_alg».proof.Proof.Gen.ReferenceIdeal.Read
import proofs.«407747_j76527727280298_3_alg».proof.Proof.RowLaw
import Idealize.ShloMosaic.PureOps.Reduce

noncomputable section

namespace Cert.RefRow

open Cert.ReferenceIdeal Cert.ReferenceIdeal.Gen Cert.ReferenceIdeal.Read Idealize.ShloMosaic Idealize.ShloMosaic.ValueIdx

variable (X : (⟨S16384x1024, .f32⟩ : BufTy).Contents (Elt Ideal)) (Y : (⟨S4096x1024, .f32⟩ : BufTy).Contents (Elt Ideal))

/-- Row n of the documents. -/
abbrev row (n : Fin 16384) : Fin 1024 → EReal := fun k => X (ix2 n k)

/-- The label table by row and column. -/
abbrev tab : Fin 4096 → Fin 1024 → EReal := fun l k => Y (ix2 l k)

/-- The score matrix at (n, l) is the score of label l for row n. -/
theorem score_apply (n : Fin 16384) (l : Fin 4096) :
    val_main_v0 (F := Ideal) X Y (ix2 n l) = RowLaw.score (row X n) (tab Y) l := by
  rw [val_main_v0_apply]
  unfold RowLaw.score
  refine Finset.sum_congr rfl fun k _ => congrArg₂ (· * ·) (congrArg X ?_) (congrArg Y ?_)
  · exact funext fun a => Fin.ext (by match a with | ⟨0, _⟩ => rfl | ⟨1, _⟩ => rfl)
  · exact funext fun a => Fin.ext (by match a with | ⟨0, _⟩ => rfl | ⟨1, _⟩ => rfl)

/-- The reduced index n with the label coordinate l put back is (n, l). -/
theorem lift_eq (h : S16384x4096.Reduces [1] S16384) (n : Fin 16384) (l : Fin (S16384x4096.size 1)) :
    h.lift (ix1 n) l = ix2 n (⟨l.val, l.isLt⟩ : Fin 4096) :=
  funext fun a => Fin.ext (by match a with | ⟨0, _⟩ => rfl | ⟨1, _⟩ => rfl)

/-- The host's row maximum over the 4096 labels, from −∞: the running maximum of the row's entries. -/
theorem rowMax_apply (v : FVec Ideal S16384x4096 .f32) (n : Fin 16384) :
    Host.reduce FloatOps.maximumf v (constant S_ .f32 0xFF800000#32) reducesTo_S16384x4096_S16384_d1 h_S_ (ix1 n)
      = (Finset.univ : Finset (Fin 4096)).fold max (Ideal.ofBits .f32 0xFF800000#32) (fun l => v (ix2 n l)) :=
  (Host.reduce_eq_fold_single FloatOps.maximumf v _ reducesTo_S16384x4096_S16384_d1 (by decide) h_S_ (ix1 n)).trans
    (congrArg (fun f => Finset.fold max (Ideal.ofBits .f32 0xFF800000#32) f (Finset.univ : Finset (Fin 4096)))
      (funext fun l => congrArg v (lift_eq _ n l)))

/-- The row maximum the reference subtracts — the reduce from −∞, then once more the maximum with −∞ — is the row's top
    score. -/
theorem top_apply (n : Fin 16384) :
    val_main_v3 (F := Ideal) X Y (ix1 n) = RowLaw.top (row X n) (tab Y) := by
  rw [val_main_v3_apply, val_main_v2_apply, val_main_cst_0_apply]
  unfold val_main_v1
  have hf : (fun l : Fin 4096 => val_main_v0 (F := Ideal) X Y (ix2 n l)) = RowLaw.score (row X n) (tab Y) :=
    funext fun l => score_apply X Y n l
  refine (congrArg (max (Ideal.ofBits .f32 0xFF800000#32))
    ((rowMax_apply (val_main_v0 (F := Ideal) X Y) n).trans
      (congrArg (fun f => Finset.fold max (Ideal.ofBits .f32 0xFF800000#32) f (Finset.univ : Finset (Fin 4096))) hf))).trans ?_
  unfold RowLaw.top
  rw [RowLaw.ofBits_neg_inf]
  exact max_eq_right bot_le

/-- The exponentiated matrix at (n, l) is the weight of label l for row n. -/
theorem weight_apply (n : Fin 16384) (l : Fin 4096) :
    val_main_v7 (F := Ideal) X Y (ix2 n l) = RowLaw.weight (row X n) (tab Y) l := by
  rw [val_main_v7_apply, val_main_v6_apply, val_main_v5_apply, val_main_v4_apply, score_apply]
  have e : idx_main_v4 (idx_main_v5 (ix2 n l)) = ix1 n :=
    funext fun a => Fin.ext (by match a with | ⟨0, _⟩ => rfl)
  rw [e, top_apply]
  rfl

/-- The row sums at n: the row's mass. -/
theorem mass_apply (n : Fin 16384) :
    val_main_v8 (F := Ideal) X Y (ix1 n) = RowLaw.mass (row X n) (tab Y) := by
  rw [val_main_v8_apply, val_main_cst_1_apply]
  unfold RowLaw.mass
  show Ideal.ofBits .f32 0x00000000#32 + _ = _
  rw [Ideal.ofBits_zero_f32, zero_add]
  refine Finset.sum_congr rfl fun l _ => ?_
  have e : idx_main_v8 (ix1 n) l = ix2 n l :=
    funext fun a => Fin.ext (by match a with | ⟨0, _⟩ => rfl | ⟨1, _⟩ => rfl)
  rw [e, weight_apply]

/-- The reference's result at (n, d): the documents' entry plus the table's column d weighted by the normalized
    weights of row n. -/
theorem result_apply (n : Fin 16384) (d : Fin 1024) :
    val_main_v13 (F := Ideal) X Y (ix2 n d) = RowLaw.normalized (row X n) (tab Y) d := by
  rw [val_main_v13_apply, val_main_v12_apply]
  unfold RowLaw.normalized
  show X (ix2 n d) + _ = _
  refine congrArg (X (ix2 n d) + ·) (Finset.sum_congr rfl fun l _ => ?_)
  have el : lidx_main_v12 (ix2 n d) l = ix2 n l :=
    funext fun a => Fin.ext (by match a with | ⟨0, _⟩ => rfl | ⟨1, _⟩ => rfl)
  have er : ridx_main_v12 (ix2 n d) l = ix2 l d :=
    funext fun a => Fin.ext (by match a with | ⟨0, _⟩ => rfl | ⟨1, _⟩ => rfl)
  rw [el, er, val_main_v11_apply, val_main_v10_apply, val_main_v9_apply, weight_apply]
  have e : idx_main_v9 (idx_main_v10 (ix2 n l)) = ix1 n :=
    funext fun a => Fin.ext (by match a with | ⟨0, _⟩ => rfl)
  rw [e, mass_apply]
  rfl

end Cert.RefRow

end
-- ==== Proof.Bridge.lean ====
/-
  The two results are one function when the arguments hold real numbers.

  The kernel's array is, at (n, d), the deferred form of the row law for row n of the documents; the reference's is the
  normalized form for the same row. With real entries the two forms agree.
-/
import proofs.«407747_j76527727280298_3_alg».proof.Proof.KernelArray
import proofs.«407747_j76527727280298_3_alg».proof.Proof.RefRow

noncomputable section

namespace Cert.Bridge

open Idealize.ShloMosaic Idealize.ShloMosaic.ValueIdx

/-- For real-valued documents A and label table B the reference's result is the kernel's function of them. -/
theorem ref_eq_G (A : Vec Ideal Cert.KernelIdeal.S16384x1024 .f32) (B : Vec Ideal Cert.KernelIdeal.S4096x1024 .f32)
    (hA : ∀ i, ∃ r : ℝ, A i = (r : EReal)) (hB : ∀ i, ∃ r : ℝ, B i = (r : EReal)) :
    Cert.ReferenceIdeal.Read.val_main_v13 (F := Ideal) A B = Cert.KernelArray.G A B := by
  choose a ha using hA
  choose b hb using hB
  funext i
  obtain ⟨n, d, rfl⟩ : ∃ (n : Fin 16384) (d : Fin 1024), i = ix2 n d := ⟨i 0, i 1, eq_ix2 i⟩
  rw [Cert.RefRow.result_apply]
  unfold Cert.KernelArray.G
  have e1 : Cert.RefRow.row A n = fun k : Fin 1024 => ((a (ix2 n k) : ℝ) : EReal) := funext fun k => ha _
  have e2 : Cert.RefRow.tab B = fun (l : Fin 4096) (k : Fin 1024) => ((b (ix2 l k) : ℝ) : EReal) :=
    funext fun l => funext fun k => hb _
  show _ = RowLaw.deferred (Cert.RefRow.row A n) (Cert.RefRow.tab B) d
  rw [e1, e2]
  exact (RowLaw.deferred_eq_normalized (fun k : Fin 1024 => a (ix2 n k)) (fun (l : Fin 4096) (k : Fin 1024) => b (ix2 l k)) d).symm

end Cert.Bridge

end
-- ==== Proof.Finite.lean ====
/-
  The precondition read: every entry of both arguments is a real number.

  The precondition compares the absolute value of every entry with +∞ and takes the conjunction over each array, then
  of the two arrays. An extended real whose absolute value is below +∞ is neither infinity, so it is a real.
-/
import proofs.«407747_j76527727280298_3_alg».proof.Pre_finite_inputs
import Idealize.ShloMosaic.PureOps.Ideal
import Idealize.ShloMosaic.Lib.ReduceAll
import Idealize.ShloMosaic.Lib.Affine
import Idealize.ShloMosaic.Lib.ValueIdx
import Idealize.ShloMosaic.Lib.Pipeline.Value

noncomputable section

namespace Cert.Finite

open Idealize.ShloMosaic Cert.Pre_finite_inputs

/-- The shape with no axes has one index. -/
instance : Subsingleton (⟨0, ![]⟩ : Shape).Idx := ⟨fun a b => funext fun d => d.elim0⟩

/-- The word of +∞ is the top of the extended reals. -/
theorem ofBits_inf : Ideal.ofBits .f32 0x7F800000#32 = (⊤ : EReal) := by
  simp [Ideal.ofBits, Ideal.ieee]

/-- An extended real whose absolute value compares below +∞ is a real: at either infinity the absolute value is +∞. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One entry of an array whose entrywise comparison with the broadcast +∞ holds. -/
theorem real_of_lt_inf {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have hc : broadcastInDim s ![] hb (constant (F := Ideal) S_ .f32 0x7F800000#32) i = Ideal.ofBits .f32 0x7F800000#32 :=
    broadcastInDim_apply _ hb _ i ValueIdx.ix0 (fun a => a.elim0)
  have h' : Ideal.cmp .olt (max (a i) (-(a i))) (broadcastInDim s ![] hb (constant (F := Ideal) S_ .f32 0x7F800000#32) i) = 1#1 := h
  rw [hc] at h'
  exact real_of_abs_lt _ h'

variable [Facts]

/-- Under the precondition both arguments hold real numbers everywhere. -/
theorem real_of_pre (a0 : FVec Ideal S16384x1024 .f32) (a1 : FVec Ideal S4096x1024 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.mp h0
  exact ⟨fun i => real_of_lt_inf a0 _ i (Host.reduce_andi_all _ _ _ _ _ h1 i),
    fun i => real_of_lt_inf a1 _ i (Host.reduce_andi_all _ _ _ _ _ h2 i)⟩

end Cert.Finite

end
-- ==== Proof.lean ====
/-
  Label attention added onto the documents: out = X + softmax (X · Yᵀ) · Y, for documents X (16384 × 1024) and labels
  Y (4096 × 1024), row by row.

  The kernel handles 512 document rows per grid point against the whole label table. For each row it takes the scores
  against all labels, subtracts the row's largest score, exponentiates, and multiplies these unnormalized weights with
  the table; only then does it scale the row by one over the sum of the weights, and adds the documents' row. The
  reference normalizes each weight by the sum first and multiplies afterwards. The changes of float format in the kernel
  are the identity at exact values, so nothing was rewritten between the kernel and its idealization.

  The two arrangements differ by moving the factor 1 / (sum of weights) across a sum over labels, which on extended
  reals needs the terms to be finite: here the precondition gives real inputs, so every score is real, the row maximum
  is real, the weights are positive reals and their sum is a positive real, and the identity is distributivity of the
  reals (RowLaw). The kernel's array is read off its generated block-by-block run: each point's write-back is its block
  of one whole-array function, and the 32 blocks tile the array (KernelArray, over the body's stored value read at an
  entry in Payload). The reference's result is read stage by stage at an entry (RefRow). Both kernels' frames are the
  generated ones; the reference's frame is its generated run with the result dropped.
-/
import proofs.«407747_j76527727280298_3_alg».proof.Defs
import proofs.«407747_j76527727280298_3_alg».proof.Proof.Gen.Kernel
import proofs.«407747_j76527727280298_3_alg».proof.Proof.Gen.Kernel.Skeleton
import proofs.«407747_j76527727280298_3_alg».proof.Proof.Gen.Kernel.Launch
import proofs.«407747_j76527727280298_3_alg».proof.Proof.Gen.Kernel.Points
import proofs.«407747_j76527727280298_3_alg».proof.Proof.Gen.Kernel.Frame
import proofs.«407747_j76527727280298_3_alg».proof.Proof.Gen.KernelIdeal
import proofs.«407747_j76527727280298_3_alg».proof.Proof.Gen.KernelIdeal.Skeleton
import proofs.«407747_j76527727280298_3_alg».proof.Proof.Gen.KernelIdeal.Launch
import proofs.«407747_j76527727280298_3_alg».proof.Proof.Gen.KernelIdeal.Points
import proofs.«407747_j76527727280298_3_alg».proof.Proof.Gen.KernelIdeal.Frame
import proofs.«407747_j76527727280298_3_alg».proof.Proof.Gen.ReferenceIdeal
import proofs.«407747_j76527727280298_3_alg».proof.Proof.Gen.Pre_finite_inputs
import proofs.«407747_j76527727280298_3_alg».proof.Proof.Gen.KernelIdeal.Value
import proofs.«407747_j76527727280298_3_alg».proof.Proof.Gen.ReferenceIdeal.Run
import proofs.«407747_j76527727280298_3_alg».proof.Proof.Gen.ReferenceIdeal.Read
import proofs.«407747_j76527727280298_3_alg».proof.Proof.Bridge
import proofs.«407747_j76527727280298_3_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at exact values. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_reference :
    Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories agreeing on real-valued arguments both programs end with the same array: the kernel's is the
    deferred row law of each document row, the reference's the normalized one, and these agree on real inputs. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelArray.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1) : Vec Ideal Cert.KernelIdeal.S4096x1024 .f32),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hA, hB⟩ := Cert.Finite.real_of_pre _ _ (hpre c)
  exact (Cert.ReferenceIdeal.Read.val_main_v13_eq _ _).trans (Cert.Bridge.ref_eq_G _ _ hA hB)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
